-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.BodyValue.lean ====
/-
  What one grid step leaves in the accumulator block.

  The kernel body, at a grid point with reduction coordinate k, reads a 1024 × 512 block `a` of x and a 512 × 1024 block `b`
  of perm, and updates a 1024 × 1024 accumulator block held in scratch memory:

      acc ← (acc, or the zero block when k = 0) + a · b,

  where a · b is the matrix product into an all-zero block. At the last reduction step (k = 7) the updated accumulator is
  also copied to the output block. Below, each of the four stored values the three control cases leave (the accumulator in
  each case, and the output block in the last case) is identified with that one update term, for any float instance; then
  the update term is read at an entry over the extended reals, where the narrowing of the operands to bf16 changes nothing:

      update a b acc (p, q) = acc (p, q) + ∑ r < 512, a (p, r) · b (r, q),      zero (p, q) = 0.
-/
import proofs.«123523_j5970004542088_1_alg».proof.Proof.Gen.KernelIdeal.Frame
import proofs.«123523_j5970004542088_1_alg».proof.Proof.LibDotPlain
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-! ## The stored values, case by case -/

/-- First reduction step (k = 0): the accumulator is overwritten with the zero block, read back, and the product of
    the two input blocks is added; the second store covers the first, so what is left is `zero + a · b`. -/
theorem acc_first (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec F S1024x512 .f32) (x1 : Vec F S512x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x512) origin,
    View.ld_unit_zero (S := S512x1024) origin]

/-- A middle reduction step (0 < k < 7): the accumulator `acc` the step before left is read whole and the product is
    added: `acc + a · b`. -/
theorem acc_middle (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 : Vec F S1024x512 .f32) (x1 : Vec F S512x1024 .f32) (acc : Vec F S1024x1024 .f32) :
    sout0_B_0 c i a3 h3 a4 h4 a5 h5 a6 h6 hc0 hc1 x0 x1 acc = k0_pay2 x0 x1 acc := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero origin]
  simp only [View.readAt_eq_ld, h3.read_unread, h4.read_unread, h6.read_unread, View.ld_unit_zero (S := S1024x512) origin,
    View.ld_unit_zero (S := S512x1024) origin, View.ld_unit_zero (S := S1024x1024) origin]

/-- The last reduction step (k = 7) updates the accumulator exactly as a middle step does. -/
theorem acc_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x512 .f32) (x1 : Vec F S512x1024 .f32) (acc : Vec F S1024x1024 .f32) :
    sout0_C_0 c i a3 h3 a4 h4 a5 h5 a6 h6 hc0 hc1 x0 x1 acc = k0_pay2 x0 x1 acc := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero origin]
  simp only [View.readAt_eq_ld, h3.read_unread, h4.read_unread, h6.read_unread, View.ld_unit_zero (S := S1024x512) origin,
    View.ld_unit_zero (S := S512x1024) origin, View.ld_unit_zero (S := S1024x1024) origin]

/-- … and then copies the updated accumulator, read back whole, into the output block: the output block holds the same
    `acc + a · b`. -/
theorem out_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x512 .f32) (x1 : Vec F S512x1024 .f32) (acc : Vec F S1024x1024 .f32) :
    out0_C_2 c i a3 h3 a4 h4 a5 h5 a6 h6 hc0 hc1 x0 x1 acc = k0_pay2 x0 x1 acc := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x512) origin,
    View.ld_unit_zero (S := S512x1024) origin, View.ld_unit_zero (S := S1024x1024) origin]

/-! ## The update at an entry, over the extended reals -/

/-- The block the first step resets the accumulator to is zero at every entry. -/
theorem zero_apply (y : S1024x1024.Idx) : (k0_pay1 (F := Ideal)) y = 0 := by
  unfold k0_pay1
  rw [shapeCast_self]
  exact Ideal.ofBits_zero_f32

/-- One step's update at entry (p, q): the accumulator's entry plus the 512-term inner product of row p of the x block
    with column q of the perm block. Narrowing the operands to bf16 is the identity on the extended reals, and the
    product into the zero block is the plain sum of products. -/
theorem update_apply (x0 : FVec Ideal S1024x512 .f32) (x1 : FVec Ideal S512x1024 .f32) (acc : FVec Ideal S1024x1024 .f32)
    (p q : Fin 1024) :
    k0_pay2 (F := Ideal) x0 x1 acc (ix2 p q) = acc (ix2 p q) + ∑ r : Fin 512, x0 (ix2 p r) * x1 (ix2 r q) := by
  unfold k0_pay2
  rw [shapeCast_self]
  show acc (ix2 p q) + FloatOps.matmul (DotDims.plain 1024 512 1024) none
      (truncf .bf16 x0 bitsLt_bf16_f32 : FVec Ideal ⟨2, ![1024, 512]⟩ .bf16)
      (truncf .bf16 x1 bitsLt_bf16_f32 : FVec Ideal ⟨2, ![512, 1024]⟩ .bf16)
      (constant ⟨2, ![1024, 1024]⟩ .f32 0x00000000#32) (ix2 p q) = _
  rw [Cert.LibDotPlain.matmul_zero_plain]
  rfl

end Cert.KernelIdeal.Acc

end
-- ==== Proof.Blocks.lean ====
/-
  Where each grid point's blocks lie in the arrays.

  The grid has 8 × 4 × 8 points (bi, bj, k), visited with k fastest: point number t has bi = t / 32, bj = t / 8 mod 4 and
  k = t mod 8. At that point the kernel is handed
    • the block of x with rows 1024·bi … 1024·bi + 1023 and columns 512·k … 512·k + 511,
    • the block of perm with rows 512·k … 512·k + 511 and columns 1024·bj … 1024·bj + 1023,
  and writes the block of the result with rows 1024·bi … and columns 1024·bj …. The block coordinates are decided once over
  the 256 points; an entry of a block is then the array's entry at block coordinate × block extent + position in the block.
-/
import proofs.«123523_j5970004542088_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The two argument arrays and, at a grid point, the two input blocks, at their literal shapes. -/
abbrev xArr (c : Dev nD) : Vec F S8192x4096 .f32 := m ((c : Thread nD τ).loc main_arg0)
abbrev wArr (c : Dev nD) : Vec F S4096x4096 .f32 := m ((c : Thread nD τ).loc main_arg1)
abbrev xBlk (c : Dev nD) (t : Fin cfg0.N) : Vec F S1024x512 .f32 := iblk m c 0 t
abbrev wBlk (c : Dev nD) (t : Fin cfg0.N) : Vec F S512x1024 .f32 := iblk m c 1 t

/-- The x block's coordinates at point `t` are (bi, k). -/
theorem xBlk_coords : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)

/-- The perm block's coordinates at point `t` are (k, bj). -/
theorem wBlk_coords : ∀ t : Fin cfg0.N, win0_1.index t (0 : Fin 2) = t.val % 8 ∧ win0_1.index t (1 : Fin 2) = t.val / 8 % 4 :=
  (by decide +kernel : ∀ t : Fin grid0.N, win0_1.index t (0 : Fin 2) = t.val % 8 ∧ win0_1.index t (1 : Fin 2) = t.val / 8 % 4)

/-- The result block's coordinates at point `t` are (bi, bj). -/
theorem oBlk_coords : ∀ t : Fin cfg0.N, win0_2.index t (0 : Fin 2) = t.val / 32 ∧ win0_2.index t (1 : Fin 2) = t.val / 8 % 4 :=
  (by decide +kernel : ∀ t : Fin grid0.N, win0_2.index t (0 : Fin 2) = t.val / 32 ∧ win0_2.index t (1 : Fin 2) = t.val / 8 % 4)

/-- Entry (p, r) of the x block at point `t` is x's entry (1024·bi + p, 512·k + r). -/
theorem xBlk_apply (c : Dev nD) (t : Fin cfg0.N) (p : Fin 1024) (r : Fin 512)
    (h0 : 1024 * (t.val / 32) + p.val < 8192) (h1 : 512 * (t.val % 8) + r.val < 4096) :
    xBlk m c t (ix2 p r) = xArr m c (ix2 ⟨1024 * (t.val / 32) + p.val, h0⟩ ⟨512 * (t.val % 8) + r.val, h1⟩) := by
  obtain ⟨e0, e1⟩ := xBlk_coords t
  show iblk m c 0 t (ix2 p r) = _
  unfold iblk
  rw [View.read_apply]
  show V m c main_arg0 _ = m ((c : Thread nD τ).loc main_arg0) _
  unfold V
  congr 1
  funext a
  apply Fin.ext
  match a with
  | ⟨0, _⟩ => show win0_0.index t (0 : Fin 2) * 1024 + 1 * p.val = 1024 * (t.val / 32) + p.val; omega
  | ⟨1, _⟩ => show win0_0.index t (1 : Fin 2) * 512 + 1 * r.val = 512 * (t.val % 8) + r.val; omega

/-- Entry (r, q) of the perm block at point `t` is perm's entry (512·k + r, 1024·bj + q). -/
theorem wBlk_apply (c : Dev nD) (t : Fin cfg0.N) (r : Fin 512) (q : Fin 1024)
    (h0 : 512 * (t.val % 8) + r.val < 4096) (h1 : 1024 * (t.val / 8 % 4) + q.val < 4096) :
    wBlk m c t (ix2 r q) = wArr m c (ix2 ⟨512 * (t.val % 8) + r.val, h0⟩ ⟨1024 * (t.val / 8 % 4) + q.val, h1⟩) := by
  obtain ⟨e0, e1⟩ := wBlk_coords t
  show iblk m c 1 t (ix2 r q) = _
  unfold iblk
  rw [View.read_apply]
  show V m c main_arg1 _ = m ((c : Thread nD τ).loc main_arg1) _
  unfold V
  congr 1
  funext a
  apply Fin.ext
  match a with
  | ⟨0, _⟩ => show win0_1.index t (0 : Fin 2) * 512 + 1 * r.val = 512 * (t.val % 8) + r.val; omega
  | ⟨1, _⟩ => show win0_1.index t (1 : Fin 2) * 1024 + 1 * q.val = 1024 * (t.val / 8 % 4) + q.val; omega

end Cert.KernelIdeal.Acc

end
-- ==== Proof.ChunkedSum.lean ====
/-
  A row-by-column inner product summed chunk by chunk.

  For an M × K array X and a K × N array W over the extended reals, entry (i, j) of the matrix product is the K-term sum
  ∑ q < K, X (i, q) · W (q, j). Addition of extended reals is commutative and associative (with −∞ absorbing +∞), so this
  sum may be taken in consecutive chunks of any length D: writing P n for the sum of the first n terms,

      P 0 = 0,        P (D · (s + 1)) = P (D · s) + ∑ r < D, X (i, D·s + r) · W (D·s + r, j),        P K = the entry.

  No finiteness of the entries is needed: only the monoid laws of addition are used, and no term is ever cancelled or
  distributed over. To speak of "the first n terms" for a bare number n, entries are read at natural-number coordinates
  (`entry`), with the value 0 outside the array; inside the array this is the array's own entry.
-/
import Idealize.ShloMosaic.Lib.ValueIdx
import Mathlib.Algebra.BigOperators.Fin

noncomputable section

open scoped BigOperators

namespace Cert.ChunkedSum

open Idealize.ShloMosaic Idealize.ShloMosaic.ValueIdx

variable {M K N : Nat}

/-- The entry of a rank-2 array at natural-number coordinates; 0 outside the array. -/
def entry {R C : Nat} (A : (⟨2, ![R, C]⟩ : Shape).Idx → EReal) (i j : ℕ) : EReal :=
  if h : i < R ∧ j < C then A (ix2 ⟨i, h.1⟩ ⟨j, h.2⟩) else 0

/-- Inside the array, `entry` is the array's entry. -/
theorem entry_of_lt {R C : Nat} (A : (⟨2, ![R, C]⟩ : Shape).Idx → EReal) {i j : ℕ} (hi : i < R) (hj : j < C) :
    entry A i j = A (ix2 ⟨i, hi⟩ ⟨j, hj⟩) := dif_pos ⟨hi, hj⟩

/-- The sum of the first `n` terms of the inner product of row `i` of `X` with column `j` of `W`. -/
def firstTerms (X : (⟨2, ![M, K]⟩ : Shape).Idx → EReal) (W : (⟨2, ![K, N]⟩ : Shape).Idx → EReal) (i j n : ℕ) : EReal :=
  ∑ q ∈ Finset.range n, entry X i q * entry W q j

/-- No terms sum to zero. -/
theorem firstTerms_zero (X : (⟨2, ![M, K]⟩ : Shape).Idx → EReal) (W : (⟨2, ![K, N]⟩ : Shape).Idx → EReal) (i j : ℕ) :
    firstTerms X W i j 0 = 0 := Finset.sum_range_zero _

/-- The next chunk of `D` terms: if `a r` and `b r` are the entries of row `i` of `X` and of column `j` of `W` at
    position `D · s + r`, adding ∑ r < D, a r · b r to the first `D · s` terms gives the first `D · (s + 1)` terms. -/
theorem firstTerms_chunk (X : (⟨2, ![M, K]⟩ : Shape).Idx → EReal) (W : (⟨2, ![K, N]⟩ : Shape).Idx → EReal) (i j : ℕ)
    (D s : ℕ) (a b : Fin D → EReal) (ha : ∀ r : Fin D, a r = entry X i (D * s + r.val))
    (hb : ∀ r : Fin D, b r = entry W (D * s + r.val) j) :
    firstTerms X W i j (D * s) + ∑ r : Fin D, a r * b r = firstTerms X W i j (D * (s + 1)) := by
  unfold firstTerms
  rw [Nat.mul_succ, Finset.sum_range_add, Finset.sum_range fun r => entry X i (D * s + r) * entry W (D * s + r) j]
  exact congrArg _ (Finset.sum_congr rfl fun r _ => by rw [ha r, hb r])

/-- The matrix product of `X` and `W`, entry by entry. -/
def matProd (X : (⟨2, ![M, K]⟩ : Shape).Idx → EReal) (W : (⟨2, ![K, N]⟩ : Shape).Idx → EReal) :
    (⟨2, ![M, N]⟩ : Shape).Idx → EReal :=
  fun e => ∑ q : Fin K, X (ix2 (e 0) q) * W (ix2 q (e 1))

/-- All `K` terms give the product's entry. -/
theorem firstTerms_all (X : (⟨2, ![M, K]⟩ : Shape).Idx → EReal) (W : (⟨2, ![K, N]⟩ : Shape).Idx → EReal)
    (e : (⟨2, ![M, N]⟩ : Shape).Idx) : firstTerms X W (e 0).val (e 1).val K = matProd X W e := by
  unfold firstTerms matProd
  rw [Finset.sum_range]
  exact Finset.sum_congr rfl fun q _ => by
    rw [entry_of_lt X (idx2_lt0 e) q.isLt, entry_of_lt W q.isLt (idx2_lt1 e)]
    rfl

end Cert.ChunkedSum

end
-- ==== Proof.Accumulate.lean ====
/-
  The accumulator after each grid point is a partial inner product.

  Fix the arrays x and perm. For the point numbered n (bi = n / 32, bj = n / 8 mod 4, k = n mod 8), entry (p, q) of the
  accumulator block after the point is the sum of the first 512·(k + 1) terms of the inner product of row 1024·bi + p of x
  with column 1024·bj + q of perm. By induction on n: at k = 0 the accumulator restarts from the zero block and receives
  the first chunk of 512 terms; at k > 0 the point before belongs to the same (bi, bj), had reduction coordinate k − 1,
  and the body adds the chunk of terms 512·k … 512·k + 511, read from the blocks the point is handed.
-/
import proofs.«123523_j5970004542088_1_alg».proof.Proof.BodyValue
import proofs.«123523_j5970004542088_1_alg».proof.Proof.Blocks
import proofs.«123523_j5970004542088_1_alg».proof.Proof.ChunkedSum

noncomputable section

open scoped BigOperators
open Idealize.ShloMosaic Idealize.ShloMosaic.TcCoe Idealize.SL.Sem Idealize.ShloMosaic.ValueIdx
open Idealize.ShloMosaic.Pipeline (Dat)
open Cert.ChunkedSum

namespace Cert.KernelIdeal.Acc

open Cert.KernelIdeal Cert.KernelIdeal.Gen

variable (m : (ℓ : Loc nD τ sig) → Buf (Elt Ideal) ℓ)

/-- One step on top of a partial inner product: if entry (p, q) of `acc` is the sum of the first 512·k terms (k the
    point's reduction coordinate), then entry (p, q) of the body's update is the sum of the first 512·(k + 1) terms: the
    chunk it adds is read from the point's two input blocks, which hold columns 512·k … of x's row and rows 512·k … of
    perm's column. -/
theorem update_firstTerms (c : Dev nD) (t : Fin cfg0.N) (acc : FVec Ideal S1024x1024 .f32) (p q : Fin 1024)
    (hacc : acc (ix2 p q) = firstTerms (xArr m c) (wArr m c) (1024 * (t.val / 32) + p.val) (1024 * (t.val / 8 % 4) + q.val)
      (512 * (t.val % 8))) :
    k0_pay2 (F := Ideal) (xBlk m c t) (wBlk m c t) acc (ix2 p q)
      = firstTerms (xArr m c) (wArr m c) (1024 * (t.val / 32) + p.val) (1024 * (t.val / 8 % 4) + q.val)
          (512 * (t.val % 8 + 1)) := by
  have hN : t.val < 256 := lt_of_lt_of_eq t.isLt N_0
  have hp := p.isLt
  have hq := q.isLt
  rw [update_apply, hacc]
  exact firstTerms_chunk (xArr m c) (wArr m c) _ _ 512 (t.val % 8)
    (fun r => xBlk m c t (ix2 p r)) (fun r => wBlk m c t (ix2 r q))
    (fun r => by
      have hr := r.isLt
      rw [xBlk_apply m c t p r (by omega) (by omega)]
      exact (entry_of_lt (xArr m c) _ _).symm)
    (fun r => by
      have hr := r.isLt
      rw [wBlk_apply m c t r q (by omega) (by omega)]
      exact (entry_of_lt (wArr m c) _ _).symm)

/-- THE INVARIANT: after point `n`, entry (p, q) of the accumulator is the sum of the first 512·(n mod 8 + 1) terms of
    the inner product of x's row 1024·(n / 32) + p with perm's column 1024·(n / 8 mod 4) + q. -/
theorem acc_after (c : Dev nD) : ∀ (n : ℕ) (h : n < cfg0.N) (p q : Fin 1024),
    (outsAt0 m c n h).2 (ix2 p q)
      = firstTerms (xArr m c) (wArr m c) (1024 * (n / 32) + p.val) (1024 * (n / 8 % 4) + q.val) (512 * (n % 8 + 1))
  | 0, h, p, q => by
    have e := outsAt0_A m c ⟨0, h⟩ rfl (by show ¬(0 % 8 = 7); decide)
    dsimp only at e
    rw [e]
    dsimp only
    refine (congrFun (acc_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (xBlk m c ⟨0, h⟩) (wBlk m c ⟨0, h⟩)) (ix2 p q)).trans ?_
    refine update_firstTerms m c ⟨0, h⟩ (k0_pay1 (F := Ideal)) p q ?_
    rw [zero_apply]
    exact (firstTerms_zero _ _ _ _).symm
  | n + 1, h, p, q => by
    have hN : n + 1 < 256 := lt_of_lt_of_eq h N_0
    by_cases h0 : (n + 1) % 8 = 0
    · have h1 : ¬(n + 1) % 8 = 7 := by omega
      have e := outsAt0_A m c ⟨n + 1, h⟩ h0 h1
      dsimp only at e
      rw [e]
      dsimp only
      refine (congrFun (acc_first (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (xBlk m c ⟨n + 1, h⟩)
        (wBlk m c ⟨n + 1, h⟩)) (ix2 p q)).trans ?_
      refine update_firstTerms m c ⟨n + 1, h⟩ (k0_pay1 (F := Ideal)) p q ?_
      rw [zero_apply]
      show (0 : EReal) = firstTerms _ _ _ _ (512 * ((n + 1) % 8))
      rw [h0]
      exact (firstTerms_zero _ _ _ _).symm
    · have ih := acc_after c n (Nat.lt_of_succ_lt h) p q
      have hrow : (n + 1) / 32 = n / 32 := by omega
      have hcol : (n + 1) / 8 % 4 = n / 8 % 4 := by omega
      have hk : (n + 1) % 8 = n % 8 + 1 := by omega
      have hprev : (outsAt0 m c n (Nat.lt_of_succ_lt h)).2 (ix2 p q)
          = firstTerms (xArr m c) (wArr m c) (1024 * ((n + 1) / 32) + p.val) (1024 * ((n + 1) / 8 % 4) + q.val)
              (512 * ((n + 1) % 8)) := by
        rw [ih, hrow, hcol, hk]
      by_cases h1 : (n + 1) % 8 = 7
      · have e := outsAt0_C m c ⟨n + 1, h⟩ h0 h1
        dsimp only at e
        rw [e]
        dsimp only
        refine (congrFun (acc_last (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _) _ _ (xBlk m c ⟨n + 1, h⟩)
          (wBlk m c ⟨n + 1, h⟩) (outsAt0 m c (n + 1 - 1) _).2) (ix2 p q)).trans ?_
        exact update_firstTerms m c ⟨n + 1, h⟩ _ p q hprev
      · have e := outsAt0_B m c ⟨n + 1, h⟩ h0 h1
        dsimp only at e
        rw [e]
        dsimp only
        refine (congrFun (acc_middle (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _) _ _ (xBlk m c ⟨n + 1, h⟩)
          (wBlk m c ⟨n + 1, h⟩) (outsAt0 m c (n + 1 - 1) _).2) (ix2 p q)).trans ?_
        exact update_firstTerms m c ⟨n + 1, h⟩ _ p q hprev

end Cert.KernelIdeal.Acc

end
-- ==== Proof.KernelResult.lean ====
/-
  The kernel's result array is the matrix product.

  Only the points with reduction coordinate k = 7 write their block back. There the output block is the updated
  accumulator, whose entry (p, q) is by the invariant the sum of all 4096 = 512·8 terms of the inner product of x's row
  1024·bi + p with perm's column 1024·bj + q: the product's entry at the position the block's entry (p, q) occupies in the
  result. The 8 × 4 blocks written back tile the 8192 × 4096 result (the entry (i, j) lies in the block of the point
  bi = i / 1024, bj = j / 1024, k = 7), so after the run the whole result array is the product of x and perm.
-/
import proofs.«123523_j5970004542088_1_alg».proof.Proof.Accumulate
import proofs.«123523_j5970004542088_1_alg».proof.Proof.Gen.KernelIdeal.Value

noncomputable section

open scoped BigOperators
open Idealize.ShloMosaic Idealize.ShloMosaic.TcCoe Idealize.SL.Sem Idealize.ShloMosaic.ValueIdx
open Idealize.ShloMosaic.Pipeline (Dat)
open Cert.ChunkedSum

namespace Cert.KernelIdeal.Acc

open Cert.KernelIdeal Cert.KernelIdeal.Gen

variable (m : (ℓ : Loc nD τ sig) → Buf (Elt Ideal) ℓ) (ρ : Dev nD → PrngReg)

/-- What the result array is to hold: the product of the two argument arrays. -/
abbrev product (c : Dev nD) : Buf (Elt Ideal) ((c : Thread nD τ).loc main_v0) := matProd (xArr m c) (wArr m c)

/-- At a point with k = 7 the output block's entry (p, q) is the full 4096-term inner product of x's row 1024·bi + p
    with perm's column 1024·bj + q: the body copies the accumulator it has just updated, and the accumulator before the
    update held the first 512·7 terms (the invariant at the point before, which has the same bi, bj and k = 6). -/
theorem out_after (c : Dev nD) (t : Fin cfg0.N) (h7 : t.val % 8 = 7) (p q : Fin 1024) :
    (outsAt0 m c t.val t.isLt).1 (ix2 p q)
      = firstTerms (xArr m c) (wArr m c) (1024 * (t.val / 32) + p.val) (1024 * (t.val / 8 % 4) + q.val) 4096 := by
  have hN : t.val < 256 := lt_of_lt_of_eq t.isLt N_0
  have h0 : ¬t.val % 8 = 0 := by omega
  rw [outsAt0_C m c t h0 h7]
  dsimp only
  refine (congrFun (out_last (F := Ideal) c (grid0.coords t) (ms0_0 t) (hs0_0 t) (ms0_1 t) (hs0_1 t) (ms0_2 t) (hs0_2 t) scM0_0
    (Memref.isWhole_whole _) _ _ (xBlk m c t) (wBlk m c t) (outsAt0 m c (t.val - 1) _).2) (ix2 p q)).trans ?_
  have hrow : (t.val - 1) / 32 = t.val / 32 := by omega
  have hcol : (t.val - 1) / 8 % 4 = t.val / 8 % 4 := by omega
  have hk : (t.val - 1) % 8 + 1 = t.val % 8 := by omega
  have hall : 512 * (t.val % 8 + 1) = 4096 := by omega
  refine (update_firstTerms m c t _ p q ?_).trans (congrArg (firstTerms (xArr m c) (wArr m c) _ _) hall)
  rw [acc_after m c (t.val - 1) _ p q, hrow, hcol, hk]

/-- What a point with k = 7 writes back is its block of the product. -/
theorem flushed_eq (c : Dev nD) (t : Fin cfg0.N) (hf : (cfg0.win 2).flush t = true) :
    (dats m 0 c).flushed 2 t = ((cfg0.win 2).blk t).view.read (Elt Ideal) (product m c) := by
  have hN : t.val < 256 := lt_of_lt_of_eq t.isLt N_0
  have h7 : t.val % 8 = 7 := (flush0_2 t).mp hf
  obtain ⟨e0, e1⟩ := oBlk_coords t
  rw [Value.flushed2]
  funext y
  obtain ⟨p, q, rfl⟩ : ∃ (p q : Fin 1024), y = (ix2 p q : S1024x1024.Idx) := ⟨y 0, y 1, eq_ix2 (n0 := 1024) (n1 := 1024) y⟩
  show (outsAt0 m c t.val t.isLt).1 (ix2 p q) = product m c (((cfg0.win 2).blk t).view.emb (ix2 p q))
  rw [out_after m c t h7 p q]
  have hr : ((((cfg0.win 2).blk t).view.emb (ix2 p q)) 0).val = 1024 * (t.val / 32) + p.val := by
    show win0_2.index t (0 : Fin 2) * 1024 + 1 * p.val = _; omega
  have hc : ((((cfg0.win 2).blk t).view.emb (ix2 p q)) 1).val = 1024 * (t.val / 8 % 4) + q.val := by
    show win0_2.index t (1 : Fin 2) * 1024 + 1 * q.val = _; omega
  rw [← hr, ← hc]
  exact firstTerms_all (xArr m c) (wArr m c) _

/-- Every entry of the result lies in the block some point with k = 7 writes back. -/
theorem covered (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 256 := N_0
  let t : Fin cfg0.N := ⟨32 * ((i 0).val / 1024) + 8 * ((i 1).val / 1024) + 7, by omega⟩
  have ht : t.val = 32 * ((i 0).val / 1024) + 8 * ((i 1).val / 1024) + 7 := rfl
  obtain ⟨e0, e1⟩ := oBlk_coords t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- After the run the result array is the product. -/
theorem final (c : Dev nD) : (dats m 0 c).arrAt 2 cfg0.N = product m c :=
  (dats m 0 c).arrAt_eq_of_cover 2 (product m c) (flushed_eq m c) covered

/-- The kernel's run: every weakly fair execution terminates with the result array at the product of the argument
    arrays, and the argument arrays unchanged. -/
theorem run : θ_run defs (onTc (τ := τ) (main (F := Ideal))) ⟨m, fun _ => 0, ρ⟩ fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Acc

end
-- ==== Proof.RefResult.lean ====
/-
  The reference computes the matrix product.

  The reference program is a single host matrix product of x (8192 × 4096) with perm (4096 × 4096), contracting x's
  columns with perm's rows. Over the extended reals its entry (i, j) is ∑ q < 4096, x (i, q) · perm (q, j): the
  specification `matProd`, with no law of arithmetic used, only the contraction positions renamed by their coordinate.
-/
import proofs.«123523_j5970004542088_1_alg».proof.Proof.Gen.ReferenceIdeal.Run
import proofs.«123523_j5970004542088_1_alg».proof.Proof.LibDotPlain
import proofs.«123523_j5970004542088_1_alg».proof.Proof.ChunkedSum

noncomputable section

open scoped BigOperators
open Idealize.ShloMosaic Idealize.ShloMosaic.TcCoe Idealize.SL.Sem Idealize.ShloMosaic.ValueIdx
open Cert.ChunkedSum

namespace Cert.ReferenceIdeal.RefValue

open Cert.ReferenceIdeal

/-- The host product of the two arrays is `matProd` of them, entry by entry. -/
theorem product_eq (X : FVec Ideal S8192x4096 .f32) (W : FVec Ideal S4096x4096 .f32) :
    Host.dotGeneral dot_S8192x4096_S4096x4096_S8192x4096_1_0_0_1_n_n none X W = matProd X W := by
  funext e
  obtain ⟨i, j, rfl⟩ : ∃ (i : Fin 8192) (j : Fin 4096), e = ix2 i j := ⟨e 0, e 1, eq_ix2 e⟩
  show FloatOps.dotGeneral (DotDims.plain 8192 4096 4096) none .single X W (ix2 i j) = _
  rw [Cert.LibDotPlain.dotGeneral_plain]
  rfl

end Cert.ReferenceIdeal.RefValue

end
-- ==== Proof.lean ====
/-
  x @ perm, tiled: the certificate's five claims.

  The kernel computes the 8192 × 4096 product of x (8192 × 4096) with perm (4096 × 4096) in 1024 × 1024 output blocks,
  each accumulated in scratch memory over 8 steps of 512 contraction positions (operands narrowed to bf16, which is the
  identity on the extended reals), and written back after the last step. The reference is one host matrix product.

  Over the extended reals both are, entry by entry, the 4096-term sum ∑ q, x (i, q) · perm (q, j): the reference by the
  meaning of the host product (RefResult), the kernel because the accumulator after step k holds the first 512·(k + 1)
  terms of that sum (Accumulate, by induction over the grid points, from the body's update read at an entry in BodyValue and
  the position of each block in its array in Blocks) and the written-back blocks tile the result (KernelResult). Splitting a
  sum into consecutive chunks uses only commutativity and associativity of extended-real addition (ChunkedSum), so the
  precondition that the inputs are finite is never opened.

  The three frames: the two kernel programs' are the generated frame runs; the reference's is its generated run with the
  result forgotten. The idealization rewrote nothing, so `preserves` is `True`.
-/
import proofs.«123523_j5970004542088_1_alg».proof.Defs
import proofs.«123523_j5970004542088_1_alg».proof.Proof.Gen.Kernel
import proofs.«123523_j5970004542088_1_alg».proof.Proof.Gen.Kernel.Frame
import proofs.«123523_j5970004542088_1_alg».proof.Proof.Gen.KernelIdeal
import proofs.«123523_j5970004542088_1_alg».proof.Proof.Gen.KernelIdeal.Frame
import proofs.«123523_j5970004542088_1_alg».proof.Proof.Gen.KernelIdeal.Value
import proofs.«123523_j5970004542088_1_alg».proof.Proof.Gen.ReferenceIdeal
import proofs.«123523_j5970004542088_1_alg».proof.Proof.Gen.ReferenceIdeal.Run
import proofs.«123523_j5970004542088_1_alg».proof.Proof.Gen.Pre_finite_inputs
import proofs.«123523_j5970004542088_1_alg».proof.Proof.KernelResult
import proofs.«123523_j5970004542088_1_alg».proof.Proof.RefResult
import Idealize.ShloMosaic.Adequacy
import Idealize.ShloMosaic.Init

noncomputable section

namespace Cert.Proof

open Idealize.ShloMosaic Idealize.SL.Sem

/-- The kernel as printed runs to the end without a fault and leaves x and perm as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run to the product, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and perm, both idealized programs end with the result array at the product of x and
    perm: the kernel by its blockwise accumulation, the reference by the meaning of the host product. -/
theorem algebraic : Cert.algebraic_KernelIdeal_ReferenceIdeal := by
  intro m ρ m' ρ' _ hagree
  refine ⟨fun c => Cert.KernelIdeal.Acc.product m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.product_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
